-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x1024 : Shape := ⟨3, ![16, 4096, 1024]⟩
abbrev S4096 : Shape := ⟨1, ![4096]⟩
abbrev S_ : Shape := ⟨0, ![]⟩

class Facts : Prop where
  bcast_S_S16x4096x1024 : S_.BroadcastsInDim S16x4096x1024 (![] : Fin 0 → Fin S16x4096x1024.rank)
  reducesTo_S16x4096x1024_S_d0_1_2 : S16x4096x1024.ReducesTo [0, 1, 2] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S16x4096x1024 .f32) (main_arg1 : FVec F S4096 .f32) : IVec S_ 1 :=
  let main_v0 : FVec F S16x4096x1024 .f32 := Host.absf main_arg0
  let main_cst : FVec F S_ .f32 := constant S_ .f32 0x7F800000#32
  let main_v1 : FVec F S16x4096x1024 .f32 := broadcastInDim S16x4096x1024 ![] bcast_S_S16x4096x1024 main_cst
  let main_v2 : IVec S16x4096x1024 1 := cmpf .olt main_v0 main_v1
  let main_c : IVec S_ 1 := constantI S_ 1 1#1
  let main_v3 : IVec S_ 1 := (fun x v => Host.reduce IntOp.andi x v reducesTo_S16x4096x1024_S_d0_1_2 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  main_v8
-- ==== Kernel.lean ====
abbrev S16x4096x1024 : Shape := ⟨3, ![16, 4096, 1024]⟩
abbrev S4096 : Shape := ⟨1, ![4096]⟩
abbrev S524288x128 : Shape := ⟨2, ![524288, 128]⟩
abbrev S32x128 : Shape := ⟨2, ![32, 128]⟩
abbrev S4096x128 : Shape := ⟨2, ![4096, 128]⟩
abbrev S512x128 : Shape := ⟨2, ![512, 128]⟩
abbrev S1x128 : Shape := ⟨2, ![1, 128]⟩
abbrev S512x128x1 : Shape := ⟨3, ![512, 128, 1]⟩

abbrev nBuf : Space → Nat
  | .hbm => 6
  | .vmem => 5
  | .smem => 0
  | _ => 0

abbrev bufTy : (tb : Table) → Fin (tcTables nBuf tb) → BufTy
  | .hbm, ⟨0, _⟩ => ⟨S16x4096x1024, .f32⟩
  | .hbm, ⟨1, _⟩ => ⟨S4096, .f32⟩
  | .hbm, ⟨2, _⟩ => ⟨S524288x128, .f32⟩
  | .hbm, ⟨3, _⟩ => ⟨S32x128, .f32⟩
  | .hbm, ⟨4, _⟩ => ⟨S524288x128, .f32⟩
  | .hbm, ⟨5, _⟩ => ⟨S16x4096x1024, .f32⟩
  | .local _ .vmem, ⟨0, _⟩ => ⟨S4096x128, .f32⟩
  | .local _ .vmem, ⟨1, _⟩ => ⟨S4096x128, .f32⟩
  | .local _ .vmem, ⟨2, _⟩ => ⟨S32x128, .f32⟩
  | .local _ .vmem, ⟨3, _⟩ => ⟨S4096x128, .f32⟩
  | .local _ .vmem, ⟨4, _⟩ => ⟨S4096x128, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![128], ![false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_mult1 (k0_t1 : Fin k0_t1_loop.trips) : BitVec 32 :=
  let c0_i32_2 : BitVec 32 := 0#32
  let c0_i32 : BitVec 32 := 0#32
  let c1_i32 : BitVec 32 := 1#32
  let arg4 : BitVec 32 := Scf.iv c0_i32 c1_i32 k0_t1
  let c1_i32_1 : BitVec 32 := 1#32
  let v1 : BitVec 32 := Scalar.muli arg4 c1_i32_1
  let v2 : BitVec 32 := Scalar.addi c0_i32_2 v1
  let c512_i32 : BitVec 32 := 512#32
  let v3 : BitVec 32 := Scalar.muli v2 c512_i32
  v3
def k0_off1 (k0_t1 : Fin k0_t1_loop.trips) : Fin 2 → Nat :=
  let c0_i32_2 : BitVec 32 := 0#32
  let c0_i32 : BitVec 32 := 0#32
  let c1_i32 : BitVec 32 := 1#32
  let arg4 : BitVec 32 := Scf.iv c0_i32 c1_i32 k0_t1
  let c1_i32_1 : BitVec 32 := 1#32
  let v1 : BitVec 32 := Scalar.muli arg4 c1_i32_1
  let v2 : BitVec 32 := Scalar.addi c0_i32_2 v1
  let c512_i32 : BitVec 32 := 512#32
  let v3 : BitVec 32 := Scalar.muli v2 c512_i32
  let v4 : BitVec 32 := v3
  let v5 : Index := Scalar.indexCast v4
  let c0 : Index := 0#32
  ![v5.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S16x4096x1024_S524288x128 : S16x4096x1024.ShapeCasts S524288x128
  shapeCasts_S4096_S32x128 : S4096.ShapeCasts S32x128
  h_S512x128 : 0 < S512x128.numel
  shapeCasts_S512x128_S512x128 : S512x128.ShapeCasts S512x128
  inb_S32x128_S1x128_0_0 : ∀ a, (![0, 0] : Fin 2 → Nat) a + S1x128.size a ≤ S32x128.size a
  h_S1x128 : 0 < S1x128.numel
  shapeCasts_S1x128_S1x128 : S1x128.ShapeCasts S1x128
  broadcasts_S1x128_S512x128 : S1x128.Broadcasts S512x128
  shapeCasts_S512x128_S512x128x1 : S512x128.ShapeCasts S512x128x1
  shapeCasts_S512x128x1_S512x128 : S512x128x1.ShapeCasts S512x128
  inb_S32x128_S1x128_1_0 : ∀ a, (![1, 0] : Fin 2 → Nat) a + S1x128.size a ≤ S32x128.size a
  inb_S32x128_S1x128_2_0 : ∀ a, (![2, 0] : Fin 2 → Nat) a + S1x128.size a ≤ S32x128.size a
  inb_S32x128_S1x128_3_0 : ∀ a, (![3, 0] : Fin 2 → Nat) a + S1x128.size a ≤ S32x128.size a
  inb_S32x128_S1x128_4_0 : ∀ a, (![4, 0] : Fin 2 → Nat) a + S1x128.size a ≤ S32x128.size a
  inb_S32x128_S1x128_5_0 : ∀ a, (![5, 0] : Fin 2 → Nat) a + S1x128.size a ≤ S32x128.size a
  inb_S32x128_S1x128_6_0 : ∀ a, (![6, 0] : Fin 2 → Nat) a + S1x128.size a ≤ S32x128.size a
  inb_S32x128_S1x128_7_0 : ∀ a, (![7, 0] : Fin 2 → Nat) a + S1x128.size a ≤ S32x128.size a
  inb_S32x128_S1x128_8_0 : ∀ a, (![8, 0] : Fin 2 → Nat) a + S1x128.size a ≤ S32x128.size a
  inb_S32x128_S1x128_9_0 : ∀ a, (![9, 0] : Fin 2 → Nat) a + S1x128.size a ≤ S32x128.size a
  inb_S32x128_S1x128_10_0 : ∀ a, (![10, 0] : Fin 2 → Nat) a + S1x128.size a ≤ S32x128.size a
  inb_S32x128_S1x128_11_0 : ∀ a, (![11, 0] : Fin 2 → Nat) a + S1x128.size a ≤ S32x128.size a
  inb_S32x128_S1x128_12_0 : ∀ a, (![12, 0] : Fin 2 → Nat) a + S1x128.size a ≤ S32x128.size a
  inb_S32x128_S1x128_13_0 : ∀ a, (![13, 0] : Fin 2 → Nat) a + S1x128.size a ≤ S32x128.size a
  inb_S32x128_S1x128_14_0 : ∀ a, (![14, 0] : Fin 2 → Nat) a + S1x128.size a ≤ S32x128.size a
  inb_S32x128_S1x128_15_0 : ∀ a, (![15, 0] : Fin 2 → Nat) a + S1x128.size a ≤ S32x128.size a
  inb_S32x128_S1x128_16_0 : ∀ a, (![16, 0] : Fin 2 → Nat) a + S1x128.size a ≤ S32x128.size a
  inb_S32x128_S1x128_17_0 : ∀ a, (![17, 0] : Fin 2 → Nat) a + S1x128.size a ≤ S32x128.size a
  inb_S32x128_S1x128_18_0 : ∀ a, (![18, 0] : Fin 2 → Nat) a + S1x128.size a ≤ S32x128.size a
  inb_S32x128_S1x128_19_0 : ∀ a, (![19, 0] : Fin 2 → Nat) a + S1x128.size a ≤ S32x128.size a
  inb_S32x128_S1x128_20_0 : ∀ a, (![20, 0] : Fin 2 → Nat) a + S1x128.size a ≤ S32x128.size a
  inb_S32x128_S1x128_21_0 : ∀ a, (![21, 0] : Fin 2 → Nat) a + S1x128.size a ≤ S32x128.size a
  inb_S32x128_S1x128_22_0 : ∀ a, (![22, 0] : Fin 2 → Nat) a + S1x128.size a ≤ S32x128.size a
  inb_S32x128_S1x128_23_0 : ∀ a, (![23, 0] : Fin 2 → Nat) a + S1x128.size a ≤ S32x128.size a
  inb_S32x128_S1x128_24_0 : ∀ a, (![24, 0] : Fin 2 → Nat) a + S1x128.size a ≤ S32x128.size a
  inb_S32x128_S1x128_25_0 : ∀ a, (![25, 0] : Fin 2 → Nat) a + S1x128.size a ≤ S32x128.size a
  inb_S32x128_S1x128_26_0 : ∀ a, (![26, 0] : Fin 2 → Nat) a + S1x128.size a ≤ S32x128.size a
  inb_S32x128_S1x128_27_0 : ∀ a, (![27, 0] : Fin 2 → Nat) a + S1x128.size a ≤ S32x128.size a
  inb_S32x128_S1x128_28_0 : ∀ a, (![28, 0] : Fin 2 → Nat) a + S1x128.size a ≤ S32x128.size a
  inb_S32x128_S1x128_29_0 : ∀ a, (![29, 0] : Fin 2 → Nat) a + S1x128.size a ≤ S32x128.size a
  inb_S32x128_S1x128_30_0 : ∀ a, (![30, 0] : Fin 2 → Nat) a + S1x128.size a ≤ S32x128.size a
  inb_S32x128_S1x128_31_0 : ∀ a, (![31, 0] : Fin 2 → Nat) a + S1x128.size a ≤ S32x128.size a
  shapeCasts_S524288x128_S16x4096x1024 : S524288x128.ShapeCasts S16x4096x1024
  hrank0 : 0 < grid0.rank
  k0_t1_ok : k0_t1_loop.OK
  k0_mult1_dvd : ∀ k0_t1 : Fin k0_t1_loop.trips, 512 ∣ (k0_mult1 k0_t1).toNat
  k0_off1_inb : ∀ k0_t1 : Fin k0_t1_loop.trips, ∀ a, (k0_off1 k0_t1) a + S512x128.size a ≤ S4096x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S524288x128.size a
  hwx0_0 : ∀ i : grid0.Coords, EltTy.bits .f32 = 32 ∨ (Rect.block (s := S524288x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x128.size a ≤ S32x128.size a
  hwx0_1 : ∀ i : grid0.Coords, EltTy.bits .f32 = 32 ∨ (Rect.block (s := S32x128) S32x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S524288x128.size a
  hwx0_2 : ∀ i : grid0.Coords, EltTy.bits .f32 = 32 ∨ (Rect.block (s := S524288x128) S4096x128.size (cc0_transform_2 i) (hinb0_2 i)).WholeWords (EltTy.packing .f32)

variable [Facts₀]

abbrev win0_0 : Pipeline.Window sig grid0 :=
  Pipeline.Window.ofSpec (Memref.whole main_v0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S32x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4096x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x4096x1024 : Shape := ⟨3, ![16, 4096, 1024]⟩
abbrev S4096 : Shape := ⟨1, ![4096]⟩
abbrev S_ : Shape := ⟨0, ![]⟩
abbrev S16x4096x1024x1 : Shape := ⟨4, ![16, 4096, 1024, 1]⟩

abbrev nBuf : Space → Nat
  | .hbm => 26
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S4096, .f32⟩
  | .hbm, ⟨2, _⟩ => ⟨S16x4096x1024, .f32⟩
  | .hbm, ⟨3, _⟩ => ⟨S_, .f32⟩
  | .hbm, ⟨4, _⟩ => ⟨S16x4096x1024, .f32⟩
  | .hbm, ⟨5, _⟩ => ⟨S16x4096x1024, .f32⟩
  | .hbm, ⟨6, _⟩ => ⟨S16x4096x1024, .i32⟩
  | .hbm, ⟨7, _⟩ => ⟨S_, .i32⟩
  | .hbm, ⟨8, _⟩ => ⟨S16x4096x1024, .i32⟩
  | .hbm, ⟨9, _⟩ => ⟨S16x4096x1024, .i32⟩
  | .hbm, ⟨10, _⟩ => ⟨S_, .f32⟩
  | .hbm, ⟨11, _⟩ => ⟨S16x4096x1024, .f32⟩
  | .hbm, ⟨12, _⟩ => ⟨S16x4096x1024, .i1⟩
  | .hbm, ⟨13, _⟩ => ⟨S_, .f32⟩
  | .hbm, ⟨14, _⟩ => ⟨S16x4096x1024, .f32⟩
  | .hbm, ⟨15, _⟩ => ⟨S16x4096x1024, .f32⟩
  | .hbm, ⟨16, _⟩ => ⟨S_, .i32⟩
  | .hbm, ⟨17, _⟩ => ⟨S16x4096x1024, .i32⟩
  | .hbm, ⟨18, _⟩ => ⟨S16x4096x1024, .i1⟩
  | .hbm, ⟨19, _⟩ => ⟨S_, .i32⟩
  | .hbm, ⟨20, _⟩ => ⟨S16x4096x1024, .i32⟩
  | .hbm, ⟨21, _⟩ => ⟨S16x4096x1024, .i32⟩
  | .hbm, ⟨22, _⟩ => ⟨S16x4096x1024, .i32⟩
  | .hbm, ⟨23, _⟩ => ⟨S16x4096x1024x1, .i32⟩
  | .hbm, ⟨24, _⟩ => ⟨S16x4096x1024, .f32⟩
  | .hbm, ⟨25, _⟩ => ⟨S16x4096x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_call0_v0 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_c_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]

class Facts₀ : Prop where
  bcast_S_S16x4096x1024 : S_.BroadcastsInDim S16x4096x1024 (![] : Fin 0 → Fin S16x4096x1024.rank)
  bcast_S16x4096x1024_S16x4096x1024x1_0_1_2 : S16x4096x1024.BroadcastsInDim S16x4096x1024x1 (![0, 1, 2] : Fin 3 → Fin S16x4096x1024x1.rank)
  gather_S4096_S16x4096x1024x1_S16x4096x1024_n_0_n_n_0_3_1_wf : GatherDims.WF S4096 S16x4096x1024x1 S16x4096x1024 [] [0] [] [0] [] 3 ![1]

variable [Facts₀]

def gather_S4096_S16x4096x1024x1_S16x4096x1024_n_0_n_n_0_3_1 : GatherDims S4096 S16x4096x1024x1 S16x4096x1024 where
  offsetDims := []
  collapsedSliceDims := [0]
  operandBatchingDims := []
  startIndicesBatchingDims := []
  startIndexMap := [0]
  indexVectorDim := 3
  sliceSizes := ![1]
  wf := gather_S4096_S16x4096x1024x1_S16x4096x1024_n_0_n_n_0_3_1_wf

class Facts : Prop extends Facts₀ where

variable [Facts]
-- ==== Proof.LutSpec.lean ====
/-
  The lookup-table step, one element at a time, as both programs compute it over the extended reals.

  An activation `x` selects the table slot `min (⌊|x| · 2^10⌋, 4095)` (the float-to-integer conversion truncates and
  saturates, so the slot is a word in `[0, 4095]` whatever `x` is), and the result is `relu x - table[slot]`.
  The reference reads the table by a gather at the slot; the kernel splits the slot `c` into a row `c / 128` and a
  lane `c % 128` of the table laid out as 32 rows of 128 lanes, and scans the 32 rows keeping the lane's entry of
  the row that matches. This module states the element function and proves the word arithmetic both sides need:
  the slot's range, its row and lane, and what a scan of the rows leaves.
-/
import Idealize.ShloMosaic.PureOps.Ideal
import Idealize.ShloMosaic.Lib.ValueIdx
import Idealize.ShloMosaic.Lib.StableHlo.Predicate

noncomputable section

namespace Cert.Lut

open Idealize.ShloMosaic Idealize.ShloMosaic.ValueIdx

/-- The table slot of an activation: `|x| · 2^10` truncated toward zero and saturated to a 32-bit word, then
    clamped above by `4095`. -/
def slot (x : EReal) : BitVec 32 :=
  IntOp.minsi (Ideal.fptosi 32 (max x (-x) * Ideal.ofBits .f32 0x44800000#32)) 4095#32

/-- The slot is a table position: `|x| · 2^10` is never negative, so its saturated truncation is in
    `[0, 2^31 - 1]`, and the clamp brings it to `[0, 4095]`. -/
theorem slot_lt (x : EReal) : (slot x).toNat < 4096 := by
  -- the scaling word denotes 1024, so the scaled absolute value is not negative
  have hk : Ideal.ofBits .f32 0x44800000#32 = ((1024 : ℝ) : EReal) := by
    simp [Ideal.ofBits, Ideal.ieee, -EReal.coe_mul]; norm_num
  have habs : (0 : EReal) ≤ max x (-x) := by
    rcases le_total 0 x with h | h
    · exact le_max_of_le_left h
    · exact le_max_of_le_right (EReal.neg_nonneg.mpr h)
  have hz : (0 : EReal) ≤ max x (-x) * Ideal.ofBits .f32 0x44800000#32 := by
    rw [hk]; exact EReal.mul_nonneg habs (EReal.coe_nonneg.mpr (by norm_num))
  -- truncated toward zero and clamped to [lo, hi] with lo ≤ 0 ≤ hi, a nonnegative value lands in [0, hi]
  have hclamp : ∀ (lo hi : Int) (z : EReal), lo ≤ 0 → 0 ≤ hi → 0 ≤ z →
      0 ≤ Ideal.toIntClamped lo hi z ∧ Ideal.toIntClamped lo hi z ≤ hi := by
    intro lo hi z hlo hhi h0
    induction z using EReal.rec with
    | bot => exact absurd h0 (by simp)
    | top => exact ⟨hhi, le_refl _⟩
    | coe r =>
      have hr : 0 ≤ r := EReal.coe_nonneg.mp h0
      have hf : 0 ≤ ⌊r⌋ := Int.floor_nonneg.mpr hr
      show 0 ≤ max lo (min hi (if 0 ≤ r then ⌊r⌋ else ⌈r⌉)) ∧ max lo (min hi (if 0 ≤ r then ⌊r⌋ else ⌈r⌉)) ≤ hi
      rw [if_pos hr]
      constructor <;> omega
  obtain ⟨hn0, hn1⟩ := hclamp (-((2 ^ (32 - 1) : Nat) : Int)) (((2 ^ (32 - 1) : Nat) : Int) - 1) _
    (by norm_num) (by norm_num) hz
  -- so the converted word is below 2^31: it reads the same signed and unsigned
  have hw : (Ideal.fptosi 32 (max x (-x) * Ideal.ofBits .f32 0x44800000#32)).toNat < 2 ^ 31 := by
    unfold Ideal.fptosi
    rw [BitVec.toNat_ofInt]
    norm_num at hn0 hn1 ⊢
    omega
  -- the signed minimum with 4095 is at most 4095
  unfold slot IntOp.minsi
  split
  · rename_i hc
    have hi := StableHlo.Predicate.toInt_eq_toNat_of_lt hw
    simp only [BitVec.slt, hi, decide_eq_true_eq] at hc
    have h4 : (4095#32 : BitVec 32).toInt = 4095 := by decide
    rw [h4] at hc
    omega
  · decide

/-- `x` where it is nonnegative, zero elsewhere. -/
def relu (x : EReal) : EReal :=
  Scalar.select (Ideal.cmp .oge x (Ideal.ofBits .f32 0x00000000#32)) x (Ideal.ofBits .f32 0x00000000#32)

/-- One element of the result: `relu x - table[slot x]`. -/
def lut (tb : Fin 4096 → EReal) (x : EReal) : EReal := relu x - tb ⟨(slot x).toNat, slot_lt x⟩

/-- The whole result array: the element function at every index of the activations, the table read flat. -/
def G (A0 : (⟨3, ![16, 4096, 1024]⟩ : Shape).Idx → EReal) (A1 : (⟨1, ![4096]⟩ : Shape).Idx → EReal) :
    (⟨3, ![16, 4096, 1024]⟩ : Shape).Idx → EReal :=
  fun i => lut (fun n => A1 (ix1 n)) (A0 i)

/-! ## The slot as the reference's gather reads it -/

/-- A slot is not negative, so the wrap-around of a negative position leaves it alone. -/
theorem wrap_slot (c : BitVec 32) (hc : c.toNat < 4096) :
    Scalar.select (IntOp.cmpi .slt c 0#32) (IntOp.addi c 4096#32) c = c := by
  have h : ¬ IntOp.cmpi .slt c 0#32 = 1#1 := by
    rw [StableHlo.Predicate.slt_iff_toNat (by omega) (by decide)]
    simp
  rw [eq_zero_of_ne_one h, select_zero]

/-- Read signed and clamped into the table's positions, a slot is itself. -/
theorem clamp_slot (c : BitVec 32) (hc : c.toNat < 4096) : min c.toInt.toNat (4096 - 1) = c.toNat := by
  rw [StableHlo.Predicate.toInt_eq_toNat_of_lt (by omega), Int.toNat_natCast]
  omega

/-! ## The slot as the kernel splits it -/

/-- The lane of a slot: its low seven bits are never negative as a signed word, so the kernel's wrap-around of a
    negative lane leaves them alone, and reduced modulo the 128 lanes they are `c % 128`. -/
theorem lane_of_slot (c : BitVec 32) :
    (Scalar.select (IntOp.cmpi .slt (IntOp.andi c 127#32) 0#32) (IntOp.addi (IntOp.andi c 127#32) 128#32)
      (IntOp.andi c 127#32)).toNat % 128 = c.toNat % 128 := by
  -- the low seven bits are the residue modulo 128
  have hand : (IntOp.andi c 127#32).toNat = c.toNat % 128 := by
    show (c &&& 127#32).toNat = c.toNat % 128
    rw [BitVec.toNat_and]
    exact Nat.and_two_pow_sub_one_eq_mod c.toNat 7
  have hlt : (IntOp.andi c 127#32).toNat < 128 := by rw [hand]; exact Nat.mod_lt _ (by decide)
  -- a word below 128 is not negative
  have h : ¬ IntOp.cmpi .slt (IntOp.andi c 127#32) 0#32 = 1#1 := by
    rw [StableHlo.Predicate.slt_iff_toNat (by omega) (by decide)]
    simp
  rw [eq_zero_of_ne_one h, select_zero, hand, Nat.mod_mod]

/-- The row of a slot: the arithmetic shift by seven of a nonnegative word is the quotient by 128. -/
theorem row_of_slot (c : BitVec 32) (hc : c.toNat < 4096) : (IntOp.shrsi .vector c 7#32).toNat = c.toNat / 128 := by
  -- a word below 2^31 has its sign bit clear, so the arithmetic shift is the logical one
  have hm : c.msb = false := BitVec.msb_eq_false_iff_two_mul_lt.mpr (by omega)
  unfold IntOp.shrsi
  rw [if_pos (by decide), BitVec.sshiftRight_eq', BitVec.sshiftRight_eq_of_msb_false hm, BitVec.toNat_ushiftRight,
    Nat.shiftRight_eq_div_pow]
  rfl

/-- What a scan of the first `n` rows leaves at a lane: starting from `z`, row `v`'s entry `T v` replaces the
    running value exactly when the row word `h` is `v`. -/
def scan {α : Type} (h : BitVec 32) (T : Nat → α) (z : α) : Nat → α
  | 0 => z
  | n + 1 => Scalar.select (IntOp.cmpi .eq h (BitVec.ofNat 32 n)) (T n) (scan h T z n)

/-- A scan of `n` rows has found the entry of row `h` if `h < n`, and still holds `z` otherwise. -/
theorem scan_eq {α : Type} (h : BitVec 32) (T : Nat → α) (z : α) (n : Nat) (hn : n ≤ 2 ^ 32) :
    scan h T z n = if h.toNat < n then T h.toNat else z := by
  induction n with
  | zero => rw [if_neg (Nat.not_lt_zero _)]; rfl
  | succ n ih =>
    have hn' : n < 2 ^ 32 := by omega
    show Scalar.select (IntOp.cmpi .eq h (BitVec.ofNat 32 n)) (T n) (scan h T z n) = _
    rw [ih (by omega)]
    by_cases he : h = BitVec.ofNat 32 n
    · -- row n is the one looked for: its entry replaces whatever the scan held
      have hv : h.toNat = n := by rw [he, BitVec.toNat_ofNat]; exact Nat.mod_eq_of_lt hn'
      rw [StableHlo.Predicate.cmpi_eq_iff.mpr he, select_one, if_pos (by omega), hv]
    · -- another row: the scan keeps what it held, and h < n + 1 is h < n
      have hv : h.toNat ≠ n := fun e => he (BitVec.eq_of_toNat_eq (by
        rw [e, BitVec.toNat_ofNat, Nat.mod_eq_of_lt hn']))
      rw [eq_zero_of_ne_one (mt StableHlo.Predicate.cmpi_eq_iff.mp he), select_zero]
      by_cases hl : h.toNat < n
      · rw [if_pos hl, if_pos (by omega)]
      · rw [if_neg hl, if_neg (by omega)]

/-- The lane a slot selects, as the kernel computes it from the slot's low seven bits. -/
abbrev lane (c : BitVec 32) : Nat :=
  (Scalar.select (IntOp.cmpi .slt (IntOp.andi c 127#32) 0#32) (IntOp.addi (IntOp.andi c 127#32) 128#32)
    (IntOp.andi c 127#32)).toNat % 128

/-- The scan of all 32 rows at the slot's lane, subtracted from the relu, is the element function over the table
    read as 32 rows of 128 lanes: the slot's row `c / 128` is below 32, so the scan has found it, and the entry it
    kept is the one at lane `c % 128`. -/
theorem lut_of_scan (T : Fin 32 → Fin 128 → EReal) (x z : EReal) :
    relu x - scan (IntOp.shrsi .vector (slot x) 7#32)
      (fun n => if h : n < 32 then T ⟨n, h⟩ ⟨lane (slot x), Nat.mod_lt _ (by decide)⟩ else z) z 32
    = lut (fun n => T ⟨n.val / 128, by have := n.isLt; omega⟩ ⟨n.val % 128, Nat.mod_lt _ (by decide)⟩) x := by
  have hs := slot_lt x
  -- the slot's row is its quotient by 128, below 32, so the scan of 32 rows has found it
  have hrow : (IntOp.shrsi .vector (slot x) 7#32).toNat = (slot x).toNat / 128 := row_of_slot _ hs
  have hr32 : (IntOp.shrsi .vector (slot x) 7#32).toNat < 32 := by rw [hrow]; omega
  rw [scan_eq _ _ _ 32 (by norm_num), if_pos hr32]
  simp only [dif_pos hr32]
  -- the entry kept is at row c / 128 and lane c % 128
  unfold lut
  congr 2
  · exact Fin.ext hrow
  · exact Fin.ext (lane_of_slot (slot x))

end Cert.Lut

end
-- ==== Proof.LibGatherTake3.lean ====
/-
  `stablehlo.gather` of a rank-1 operand at a rank-3 array of start indices, read at an index.

  What `x[idx]` of a flat array `x : [N]` at an integer array `idx : [A, B, C]` lowers to: a gather with offset_dims
  `[]`, collapsed_slice_dims `[0]`, start_index_map `[0]`, slice_sizes `[1]` and index_vector_dim 3 over the indices
  as `[A, B, C, 1]`. Result element `(a, b, c)` is `x` at the start index `idx[a, b, c, 0]`, read as a signed integer
  and clamped into `[0, N − 1]`, as the gather clamps every start index so that its slice fits the operand. This is
  the rank-3 companion of the rank-2 statement `gather_take_apply`.
-/
import Idealize.ShloMosaic.Lib.ValueIdx

noncomputable section

namespace Cert.Lib.GatherTake3

open Idealize.ShloMosaic Idealize.ShloMosaic.ValueIdx

variable {α : Type}

/-- The dimension numbers of a flat take at a rank-3 index array: operand `[N]`, start indices `[A, B, C, 1]`,
    result `[A, B, C]`; no offset axis, the operand's one axis collapsed and named by the start index map, the index
    vector on the start indices' last axis, slices of one element. -/
abbrev take3Dims (N A B C : Nat)
    (wf : GatherDims.WF ⟨1, ![N]⟩ ⟨4, ![A, B, C, 1]⟩ ⟨3, ![A, B, C]⟩ [] [0] [] [0] [] 3 ![1]) :
    GatherDims ⟨1, ![N]⟩ ⟨4, ![A, B, C, 1]⟩ ⟨3, ![A, B, C]⟩ where
  offsetDims := []
  collapsedSliceDims := [0]
  operandBatchingDims := []
  startIndicesBatchingDims := []
  startIndexMap := [0]
  indexVectorDim := 3
  sliceSizes := ![1]
  wf := wf

/-- The start-indices index `[a, b, c, 0]` of result index `(a, b, c)`. -/
abbrev take3Idx {A B C : Nat} (y : (⟨3, ![A, B, C]⟩ : Shape).Idx) : (⟨4, ![A, B, C, 1]⟩ : Shape).Idx :=
  fun e => match e with
    | ⟨0, _⟩ => ⟨(y 0).val, (y 0).isLt⟩
    | ⟨1, _⟩ => ⟨(y 1).val, (y 1).isLt⟩
    | ⟨2, _⟩ => ⟨(y 2).val, (y 2).isLt⟩
    | ⟨3, _⟩ => ⟨0, Nat.one_pos⟩

/-- THE GATHER READ AT `(a, b, c)`: the operand at the start index `idx[a, b, c, 0]`, read signed and clamped into
    `[0, N − 1]`. The operand's one axis is neither a batching axis nor a kept (offset) axis, so the operand index is
    the clamped start alone; the start reads the index array at the result's three coordinates with `0` on the
    index vector's axis. -/
theorem gather_take3_apply {N A B C w : Nat} (hN : 0 < N)
    (wf : GatherDims.WF ⟨1, ![N]⟩ ⟨4, ![A, B, C, 1]⟩ ⟨3, ![A, B, C]⟩ [] [0] [] [0] [] 3 ![1])
    (x : (⟨1, ![N]⟩ : Shape).Idx → α) (idx : IVec ⟨4, ![A, B, C, 1]⟩ w) (y : (⟨3, ![A, B, C]⟩ : Shape).Idx) :
    Host.gather (take3Dims N A B C wf) x idx y
      = x (ix1 ⟨min (idx (take3Idx y)).toInt.toNat (N - 1), by omega⟩) := by
  unfold Host.gather
  congr 1
  funext a
  obtain rfl : a = 0 := Subsingleton.elim _ _
  refine Fin.ext ?_
  show (take3Dims N A B C wf).start y idx 0 + (take3Dims N A B C wf).batchCoord y 0
      + (take3Dims N A B C wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (take3Dims N A B C wf).startIndexMap from List.mem_singleton.mpr rfl)]
  have hsi : (take3Dims N A B C wf).siIdx y ⟨List.idxOf (0 : Fin 1) (take3Dims N A B C wf).startIndexMap,
      List.idxOf_lt_length_iff.2 (List.mem_singleton.mpr rfl)⟩ = take3Idx y := by
    funext b; refine Fin.ext ?_
    match b with
    | ⟨0, _⟩ => rfl
    | ⟨1, _⟩ => rfl
    | ⟨2, _⟩ => rfl
    | ⟨3, _⟩ => rfl
  rw [hsi]
  rfl

end Cert.Lib.GatherTake3

end
-- ==== Proof.RefIsLut.lean ====
/-
  The reference program is the lookup-table function.

  Read one element at a time, the reference computes `relu x - table[slot x]`: the activation's absolute value scaled
  by `2^10`, truncated to a word and clamped above by `4095` is the slot; a negative position would be wrapped around
  by the table's length, which a slot never is; the gather then reads the table at that position, signed and clamped
  into the table, which again leaves a slot alone. The only stage that is not elementwise is the gather, a flat take
  at a rank-3 array of positions, read at an index by `gather_take3_apply`.
-/
import proofs.«427323_j63711544869214_3_alg».proof.Proof.LutSpec
import proofs.«427323_j63711544869214_3_alg».proof.Proof.LibGatherTake3
import proofs.«427323_j63711544869214_3_alg».proof.Proof.Gen.ReferenceIdeal.Read

noncomputable section

namespace Cert.Lut.Ref

open Cert.ReferenceIdeal Cert.ReferenceIdeal.Gen Cert.ReferenceIdeal.Read
open Idealize.ShloMosaic Idealize.ShloMosaic.ValueIdx Cert.Lib.GatherTake3

/-- The clamped, scaled, truncated absolute value the reference computes at an index is the activation's slot. -/
theorem v5_eq (A0 : (⟨S16x4096x1024, .f32⟩ : BufTy).Contents (Elt Ideal)) (i : S16x4096x1024.Idx) :
    val_main_v5 (F := Ideal) A0 i = Cert.Lut.slot (A0 i) := by
  rw [val_main_v5_apply, val_main_v3_apply, val_main_v2_apply, val_main_v0_apply, val_main_v1_apply,
    val_main_cst_apply, val_main_v4_apply, val_main_c_apply]
  rfl

/-- The position handed to the gather is the slot: wrapping a negative position around by the table's length does
    nothing to a slot, which is never negative. -/
theorem v13_eq (A0 : (⟨S16x4096x1024, .f32⟩ : BufTy).Contents (Elt Ideal)) (i : S16x4096x1024.Idx) :
    val_main_v13 (F := Ideal) A0 i = Cert.Lut.slot (A0 i) := by
  rw [val_main_v13_apply, val_main_v10_apply, val_main_v12_apply, val_main_v9_apply, val_main_c_2_apply,
    val_main_v11_apply, val_main_c_3_apply, v5_eq]
  exact Cert.Lut.wrap_slot _ (Cert.Lut.slot_lt _)

/-- The select on `x ≥ 0` between `x` and zero is `relu x`. -/
theorem v8_eq (A0 : (⟨S16x4096x1024, .f32⟩ : BufTy).Contents (Elt Ideal)) (i : S16x4096x1024.Idx) :
    val_main_v8 (F := Ideal) A0 i = Cert.Lut.relu (A0 i) := by
  rw [val_main_v8_apply, val_main_v7_apply, val_main_v6_apply, val_main_cst_0_apply, val_main_call0_v0_apply,
    val_main_cst_1_apply]
  rfl

/-- The positions array with its trailing unit axis, read at `[a, b, c, 0]`, is the positions array at `(a, b, c)`. -/
theorem idx_v14_take3 (i : S16x4096x1024.Idx) : idx_main_v14 (take3Idx i) = i := by
  funext a
  match a with
  | ⟨0, _⟩ => rfl
  | ⟨1, _⟩ => rfl
  | ⟨2, _⟩ => rfl

/-- The gather at an index is the table at the activation's slot: the position read there is the slot, and reading
    it signed and clamping it into `[0, 4095]` leaves it as it is. -/
theorem v15_eq (A0 : (⟨S16x4096x1024, .f32⟩ : BufTy).Contents (Elt Ideal))
    (A1 : (⟨S4096, .f32⟩ : BufTy).Contents (Elt Ideal)) (i : S16x4096x1024.Idx) :
    val_main_v15 (F := Ideal) A0 A1 i = A1 (ix1 ⟨(Cert.Lut.slot (A0 i)).toNat, Cert.Lut.slot_lt (A0 i)⟩) := by
  have key : min ((val_main_v14 (F := Ideal) A0) (take3Idx i)).toInt.toNat (4096 - 1)
      = (Cert.Lut.slot (A0 i)).toNat := by
    rw [val_main_v14_apply, idx_v14_take3, v13_eq]
    exact Cert.Lut.clamp_slot _ (Cert.Lut.slot_lt _)
  show Host.gather (take3Dims 4096 16 4096 1024
      Facts₀.gather_S4096_S16x4096x1024x1_S16x4096x1024_n_0_n_n_0_3_1_wf) A1 (val_main_v14 (F := Ideal) A0) i = _
  rw [gather_take3_apply (by decide)]
  exact congrArg (fun n : Fin 4096 => A1 (ix1 n)) (Fin.ext key)

/-- THE REFERENCE IS THE LOOKUP-TABLE FUNCTION: at every index, `relu x` minus the table's entry at the slot of `x`. -/
theorem ref_eq (A0 : (⟨Cert.ReferenceIdeal.S16x4096x1024, .f32⟩ : BufTy).Contents (Elt Ideal))
    (A1 : (⟨Cert.ReferenceIdeal.S4096, .f32⟩ : BufTy).Contents (Elt Ideal)) :
    Cert.ReferenceIdeal.Read.val_main_v16 (F := Ideal) A0 A1 = Cert.Lut.G A0 A1 := by
  funext i
  rw [val_main_v16_apply, v8_eq, v15_eq]
  rfl

end Cert.Lut.Ref

end
-- ==== Proof.TripValue.lean ====
/-
  One grid point of the lookup-table kernel, read as a value.

  A grid point works through its block of 4096 rows of 128 lanes in eight chunks of 512 rows. For each chunk it
  computes, lane by lane, the slot `c` of the activation, the lane word `c mod 128` and the row word `c / 128`; then
  for each of the table's 32 rows in turn it broadcasts the row over the chunk, gathers along the lanes by the lane
  words, and keeps the gathered entry exactly in the lanes whose row word is that row; at the end it stores
  `relu x` minus what the scan kept. Read at one lane, a scan step is a select on "row word = v" between the row's
  entry at the lane word and the value so far (`scan_row_apply`), so the 32 steps are the scan of `LutSpec`, and
  the chunk's store is the element function of its activations over the table laid out as 32 rows of 128 lanes
  (`trip_piece`). The eight chunks' stores tile the block, each the restriction of one function of the block
  (`blockG`), so the block the grid point leaves is that function (`out_eq`).
-/
import proofs.«427323_j63711544869214_3_alg».proof.Proof.Gen.KernelIdeal.Frame
import proofs.«427323_j63711544869214_3_alg».proof.Proof.LutSpec
import Idealize.ShloMosaic.Lib.Pipeline.Value
import Idealize.ShloMosaic.Lib.ValueLayout

set_option maxRecDepth 16384

noncomputable section

namespace Cert.Lut.Trip

open Idealize.ShloMosaic Idealize.ShloMosaic.TcCoe Idealize.ShloMosaic.ValueIdx Idealize.SL.Sem Cert.KernelIdeal Cert.KernelIdeal.Gen

variable {F : FTy → Type} [FloatOps F]

/-- One step of the row scan read at a lane `(p, q)`: the row broadcast over the chunk and gathered along its lanes
    by the lane words gives, at `(p, q)`, the row's entry at the lane word of `(p, q)` (wrapped if negative, reduced
    modulo the 128 lanes); the select keeps it exactly where the row word is `v`. -/
theorem scan_row_apply (HI LO : IVec S512x128 32) (v : BitVec 32) (row : Vec F S1x128 .f32) (prev : FVec F S512x128 .f32)
    (h1 h2 : S1x128.ShapeCasts S1x128) (h3 : S1x128.Broadcasts S512x128) (h4 : S512x128.ShapeCasts S512x128x1)
    (h5 : S512x128x1.ShapeCasts S512x128) (p : Fin 512) (q : Fin 128) :
    select (cmpi .eq HI (broadcast S512x128 v))
      (dynamicGather 1 (broadcastTo S512x128 (shapeCast S1x128 (shapeCast S1x128 row h1) h2) h3)
        (shapeCast S512x128 (shapeCast S512x128x1
          (select (cmpi .slt LO (broadcast S512x128 0#32)) (addi LO (broadcast S512x128 128#32)) LO) h4) h5))
      prev (ix2 p q)
    = Scalar.select (IntOp.cmpi .eq (HI (ix2 p q)) v)
        (row (ix2 (0 : Fin 1) ⟨(Scalar.select (IntOp.cmpi .slt (LO (ix2 p q)) 0#32) (IntOp.addi (LO (ix2 p q)) 128#32)
          (LO (ix2 p q))).toNat % 128, Nat.mod_lt _ (by decide)⟩))
        (prev (ix2 p q)) := by
  rw [shapeCast_self, shapeCast_self, shapeCast_shapeCast]
  show Scalar.select _ (dynamicGather 1 _ _ (ix2 p q)) _ = _
  congr 1
  unfold dynamicGather
  rw [← broadcastTo_1b_ab_apply row h3 p]
  congr 1
  funext b
  match b with
  | ⟨0, _⟩ => rfl
  | ⟨1, _⟩ => rfl

/-- The chunk function: the element function at every lane of a block of activations, the table read as 32 rows of 128 lanes. -/
def blockG (x0 : Vec Ideal S4096x128 .f32) (x1 : Vec Ideal S32x128 .f32) : S4096x128.Idx → EReal :=
  fun y => lut (fun n => x1 (ix2 (⟨n.val / 128, by have := n.isLt; omega⟩ : Fin 32) (⟨n.val % 128, Nat.mod_lt _ (by decide)⟩ : Fin 128))) (x0 y)

/-- The relu of the chunk at a lane. -/
theorem pay6_apply (v6 : Vec Ideal S512x128 .f32) (y : S512x128.Idx) : k0_pay6 v6 y = relu (v6 y) := by
  unfold k0_pay6 k0_pay2
  rw [shapeCast_self]
  rfl

/-- The slot word of the chunk at a lane. -/
theorem pay3_apply (v6 : Vec Ideal S512x128 .f32) (y : S512x128.Idx) : k0_pay3 v6 y = slot (v6 y) := by
  unfold k0_pay3 k0_pay2
  rw [shapeCast_self]
  rfl

/-- The lane word: the slot's low seven bits. -/
theorem pay4_apply (v6 : Vec Ideal S512x128 .f32) (y : S512x128.Idx) : k0_pay4 v6 y = IntOp.andi (slot (v6 y)) 127#32 := by
  unfold k0_pay4
  show IntOp.andi (k0_pay3 v6 y) 127#32 = _
  rw [pay3_apply]

/-- The row word: the slot shifted right by seven. -/
theorem pay5_apply (v6 : Vec Ideal S512x128 .f32) (y : S512x128.Idx) : k0_pay5 v6 y = IntOp.shrsi .vector (slot (v6 y)) 7#32 := by
  unfold k0_pay5
  show IntOp.shrsi .vector (k0_pay3 v6 y) 7#32 = _
  rw [pay3_apply]

/-- A table row loaded whole reads, at lane `l`, the table's entry `(n, l)`. -/
theorem row_apply {sg : RefSig} {κ : Kind} {sp : Space} (v : View sg κ sp S32x128 .f32) (X : v.ty.Contents (Elt Ideal)) (n : Nat)
    (inb : ∀ a, (![n, 0] : Fin 2 → Nat) a + S1x128.size a ≤ S32x128.size a) (l : Fin 128) :
    View.readAt (Elt Ideal) v (Rect.unit (s := S32x128) ![n, 0] S1x128.size inb).toLoadRect X (ix2 (0 : Fin 1) l)
      = v.read (Elt Ideal) X (ix2 (⟨n, by have := inb 0; simpa using this⟩ : Fin 32) l) := by
  rw [View.readAt_apply]
  congr 1
  funext a
  match a with
  | ⟨0, _⟩ => exact Fin.ext (by show n + 1 * 0 = n; omega)
  | ⟨1, _⟩ => exact Fin.ext (by show 0 + 1 * l.val = l.val; omega)

/-- THE CHUNK'S STORE: the one store of trip `k` holds, at every lane of its 512 rows, the element function of the
    activation the trip loaded there, over the table read as 32 rows of 128 lanes. The store's payload is opened once,
    here: its 32 scan steps are read at the lane, the row loads are the table's entries at that lane, and the scan of
    all 32 rows subtracted from the relu is the element function (`lut_of_scan`). -/
theorem trip_piece (𝒱 : Variants) (c : Dev nD) (bd : Option 𝒱.V) (i : grid0.Coords) (arg1 : Memref sig .tc .vmem S4096x128 .f32) (harg1 : arg1.IsWhole) (arg2 : Memref sig .tc .vmem S32x128 .f32) (harg2 : arg2.IsWhole) (arg3 : Memref sig .tc .vmem S4096x128 .f32) (harg3 : arg3.IsWhole) (X_arg1 : BufTy.Contents (Elt Ideal) arg1.view.ty) (X_arg2 : BufTy.Contents (Elt Ideal) arg2.view.ty) (k : Fin k0_t1_loop.trips) :
    ∀ p ∈ tripL_k0_t1 (F := Ideal) 𝒱 c bd i arg1 harg1 arg2 harg2 arg3 harg3 X_arg1 X_arg2 k, ∀ x : p.1.shape.Idx,
      p.2 x = blockG (arg1.view.read (Elt Ideal) X_arg1) (arg2.view.read (Elt Ideal) X_arg2) (p.1.emb x) := by
  intro p hp x
  unfold tripL_k0_t1 trip_k0_t1 at hp
  dsimp only at hp
  obtain rfl := List.mem_singleton.mp hp
  obtain ⟨a, b, rfl⟩ : ∃ (a : Fin 512) (b : Fin 128), x = ix2 a b := ⟨x 0, x 1, eq_ix2 x⟩
  dsimp only
  sl_unfold_words
  unfold k0_pay1
  rw [subf_apply]
  unfold k0_pay7 k0_pay8
  iterate 32 rw [scan_row_apply]
  simp only [pay6_apply, pay5_apply, pay4_apply, broadcast_apply]
  iterate 32 rw [row_apply]
  unfold blockG
  exact lut_of_scan (fun r l => arg2.view.read (Elt Ideal) X_arg2 (ix2 r l)) _ _

/-! ## From the trips to the block -/

/-- Every store of the trips before `n` is its chunk of the block function. -/
theorem pieces_block (c : Dev nD) (i : grid0.Coords) (arg1 : Memref sig .tc .vmem S4096x128 .f32) (harg1 : arg1.IsWhole) (arg2 : Memref sig .tc .vmem S32x128 .f32) (harg2 : arg2.IsWhole) (arg3 : Memref sig .tc .vmem S4096x128 .f32) (harg3 : arg3.IsWhole) (X_arg1 : BufTy.Contents (Elt Ideal) arg1.view.ty) (X_arg2 : BufTy.Contents (Elt Ideal) arg2.view.ty) (n : Nat) :
    ∀ p ∈ pb_k0_t1 (F := Ideal) Variants.none c none i arg1 harg1 arg2 harg2 arg3 harg3 X_arg1 X_arg2 n, ∀ x : p.1.shape.Idx,
      p.2 x = blockG (arg1.view.read (Elt Ideal) X_arg1) (arg2.view.read (Elt Ideal) X_arg2) (p.1.emb x) := by
  induction n with
  | zero => intro p hp; rw [pb_k0_t1.eq_1] at hp; exact absurd hp List.not_mem_nil
  | succ n ih =>
    intro p hp
    rw [pb_k0_t1.eq_2] at hp
    unfold pb_k0_t1Step at hp
    split at hp
    · rename_i h
      rcases List.mem_append.mp hp with h' | h'
      · exact trip_piece Variants.none c none i arg1 harg1 arg2 harg2 arg3 harg3 X_arg1 X_arg2 ⟨n, h⟩ p h'
      · exact ih p h'
    · exact ih p hp

/-- What one grid point leaves in its output block: the block function of its two input blocks. -/
theorem out_eq (c : Dev nD) (i : grid0.Coords) (arg1 : Memref sig .tc .vmem S4096x128 .f32) (harg1 : arg1.IsWhole) (arg2 : Memref sig .tc .vmem S32x128 .f32) (harg2 : arg2.IsWhole) (arg3 : Memref sig .tc .vmem S4096x128 .f32) (harg3 : arg3.IsWhole)
    (x0 : Vec Ideal S4096x128 .f32) (x1 : Vec Ideal S32x128 .f32) :
    out0_A_2 (F := Ideal) c i arg1 harg1 arg2 harg2 arg3 harg3 x0 x1 = blockG x0 x1 := by
  unfold out0_A_2
  rw [View.read_writes_eq_canon _ _ _ (cover0_A_2 c i arg1 harg1 arg2 harg2 arg3 harg3 x0 x1)]
  funext y
  refine View.canon_apply_of_pieces (blockG x0 x1) _ ?_ y (cover0_A_2 c i arg1 harg1 arg2 harg2 arg3 harg3 x0 x1 y)
  intro p hp x
  have hL : (kernelRun0_A (F := Ideal) c i arg1 harg1 arg2 harg2 arg3 harg3 x0 x1).1
      = pb_k0_t1 (F := Ideal) Variants.none c none i arg1 harg1 arg2 harg2 arg3 harg3 (harg1.unread x0) (harg2.unread x1) (Scf.trips (0#32) (Scalar.addi 0#32 8#32) 1#32) := by
    unfold kernelRun0_A; rfl
  rw [hL] at hp
  have := pieces_block c i arg1 harg1 arg2 harg2 arg3 harg3 (harg1.unread x0) (harg2.unread x1) _ p hp x
  rwa [harg1.read_unread, harg2.read_unread] at this

end Cert.Lut.Trip

end
-- ==== Proof.KernelValue.lean ====
/-
  The lookup-table kernel's result array as one function of its two arguments.

  The grid has 128 points; point `t` reads rows `4096 t … 4096 t + 4095` of the activations (reshaped to 524288 rows
  of 128 lanes) and the whole table (reshaped to 32 rows of 128 lanes), and writes the same rows of the output. Each
  point leaves in its block the block function of `TripValue`, which is the restriction to the block of ONE function
  of the two arrays (`arrG`: the element function at every row and lane); the 128 blocks tile the array, so the
  output array after the region is `arrG`. The reshape after the region reads that array in the argument's shape,
  and since the element function acts index by index, reshaping, applying it and reshaping back is applying it in
  the argument's own shape; the table's entry `(n / 128, n mod 128)` of the reshaped table is its flat entry `n`.
  So the result is `LutSpec`'s `G` of the arguments (`run`).
-/
import proofs.«427323_j63711544869214_3_alg».proof.Proof.TripValue
import Idealize.ShloMosaic.Lib.StableHlo.Run

set_option maxRecDepth 16384

noncomputable section

namespace Cert.Lut.Kernel

open Idealize.ShloMosaic Idealize.ShloMosaic.TcCoe Idealize.ShloMosaic.ValueIdx Idealize.SL.Sem Cert.KernelIdeal Cert.KernelIdeal.Gen
open Cert.Lut.Trip

variable (m : (ℓ : Loc nD τ sig) → Buf (Elt Ideal) ℓ) (ρ : Dev nD → PrngReg)

/-- The table as the kernel holds it, 32 rows of 128 lanes, read at a flat position. -/
abbrev rowsTable (a1 : Vec Ideal S32x128 .f32) : Fin 4096 → EReal :=
  fun n => a1 (ix2 (⟨n.val / 128, by have := n.isLt; omega⟩ : Fin 32) (⟨n.val % 128, Nat.mod_lt _ (by decide)⟩ : Fin 128))

/-- The kernel's output array as one function of its two operand arrays: the element function at every row and lane. -/
def arrG (a0 : Vec Ideal S524288x128 .f32) (a1 : Vec Ideal S32x128 .f32) : S524288x128.Idx → EReal :=
  fun i => lut (rowsTable a1) (a0 i)

/-- The activations and the table as the region finds them. -/
abbrev xarr (c : Dev nD) : Vec Ideal S524288x128 .f32 := V m c main_v0
abbrev tarr (c : Dev nD) : Vec Ideal S32x128 .f32 := V m c main_v1

/-- The index maps over the grid: the activations' and the output's blocks move together, block `t` at point `t`; the
    table's one block never moves. -/
theorem idx_facts : ∀ t : Fin cfg0.N, win0_0.index t (0 : Fin 2) = win0_2.index t (0 : Fin 2)
    ∧ win0_0.index t (1 : Fin 2) = win0_2.index t (1 : Fin 2)
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the array function of the operands as the region finds them. -/
theorem flushed_eq (c : Dev nD) (t : Fin cfg0.N) :
    (dats m 0 c).flushed 2 t = ((cfg0.win 2).blk t).view.read (Elt Ideal) (arrG (xarr m c) (tarr m c)) := by
  show (cfg0.win 2).cut (grid0.coords t) ((dats m 0 c).after 2 t) = _
  rw [after0_2]
  unfold outsAt0
  rw [out_eq]
  obtain ⟨e0, e1, e2, e3, e4, e5⟩ := idx_facts t
  funext j
  show blockG (iblk m c 0 t) (iblk m c 1 t) j = arrG (xarr m c) (tarr m c) (((cfg0.win 2).blk t).view.emb j)
  have h0 : ((cfg0.win 0).blk t).view.emb j = ((cfg0.win 2).blk t).view.emb j := by
    funext a; apply Fin.ext
    match a with
    | ⟨0, _⟩ => show win0_0.index t (0 : Fin 2) * 4096 + 1 * (j 0).val = win0_2.index t (0 : Fin 2) * 4096 + 1 * (j 0).val; omega
    | ⟨1, _⟩ => show win0_0.index t (1 : Fin 2) * 128 + 1 * (j 1).val = win0_2.index t (1 : Fin 2) * 128 + 1 * (j 1).val; omega
  have h1 : ∀ y : S32x128.Idx, ((cfg0.win 1).blk t).view.emb y = y := by
    intro y; funext a; apply Fin.ext
    match a with
    | ⟨0, _⟩ => show win0_1.index t (0 : Fin 2) * 32 + 1 * (y 0).val = (y 0).val; omega
    | ⟨1, _⟩ => show win0_1.index t (1 : Fin 2) * 128 + 1 * (y 1).val = (y 1).val; omega
  show lut (fun n => V m c main_v1 (((cfg0.win 1).blk t).view.emb _)) (V m c main_v0 (((cfg0.win 0).blk t).view.emb j))
     = lut (rowsTable (tarr m c)) (xarr m c (((cfg0.win 2).blk t).view.emb j))
  rw [h0]
  simp only [h1]

/-- An index of the output array is in point `t`'s block iff each coordinate is in the block's range on its axis. -/
theorem mem_blk (t : Fin cfg0.N) (i : S524288x128.Idx) :
    i ∈ ((cfg0.win 2).blk t).view.set ↔ ∀ a : Fin 2, win0_2.index t a * S4096x128.size a ≤ (i a).val ∧ (i a).val < win0_2.index t a * S4096x128.size a + S4096x128.size a := by
  show i ∈ ((View.whole main_v2).slice (win0_2.rect t)).set ↔ _
  rw [View.set_slice_whole, Rect.mem_set_unit]
  exact Iff.rfl

/-- The 128 blocks of 4096 rows tile the 524288 rows: row `r` is in the block of point `r / 4096`. -/
theorem cover (i : S524288x128.Idx) :
    ∃ t : Fin cfg0.N, (cfg0.win 2).flush t = true ∧ i ∈ ((cfg0.win 2).blk t).view.set := by
  have hi0 : (i 0).val < 524288 := (i 0).isLt
  have hi1 : (i 1).val < 128 := (i 1).isLt
  have hN : cfg0.N = 128 := N_0
  have ht : (i 0).val / 4096 < cfg0.N := by rw [hN]; omega
  refine ⟨⟨(i 0).val / 4096, ht⟩, flush0_2 _, ?_⟩
  rw [mem_blk]
  obtain ⟨-, -, -, -, e4, e5⟩ := idx_facts ⟨(i 0).val / 4096, ht⟩
  intro a
  match a with
  | ⟨0, _⟩ =>
    show win0_2.index ⟨(i 0).val / 4096, ht⟩ (0 : Fin 2) * 4096 ≤ (i 0).val ∧ (i 0).val < win0_2.index ⟨(i 0).val / 4096, ht⟩ (0 : Fin 2) * 4096 + 4096
    rw [e4]; show (i 0).val / 4096 * 4096 ≤ (i 0).val ∧ (i 0).val < (i 0).val / 4096 * 4096 + 4096; omega
  | ⟨1, _⟩ =>
    show win0_2.index ⟨(i 0).val / 4096, ht⟩ (1 : Fin 2) * 128 ≤ (i 1).val ∧ (i 1).val < win0_2.index ⟨(i 0).val / 4096, ht⟩ (1 : Fin 2) * 128 + 128
    rw [e5]; omega

/-- The output array after the region: the array function of the operands as the region finds them. -/
theorem final (c : Dev nD) : (dats m 0 c).arrAt 2 cfg0.N = arrG (xarr m c) (tarr m c) :=
  (dats m 0 c).arrAt_eq_of_cover 2 (arrG (xarr m c) (tarr m c)) (fun t _ => flushed_eq m c t) cover

/-- The activations as the region finds them: the argument reshaped to rows of 128 lanes. -/
theorem xarr_eq (c : Dev nD) :
    xarr m c = shapeCast S524288x128 (m ((c : Thread nD τ).loc main_arg0)) shapeCasts_S16x4096x1024_S524288x128 := by
  show StableHlo.after hostOps0 (fun b => m (c, b)) (Proc.devRef .tc main_v0) = _
  after_results
  rfl

/-- The table as the region finds it: the argument reshaped to 32 rows of 128 lanes. -/
theorem tarr_eq (c : Dev nD) :
    tarr m c = shapeCast S32x128 (m ((c : Thread nD τ).loc main_arg1)) shapeCasts_S4096_S32x128 := by
  show StableHlo.after hostOps0 (fun b => m (c, b)) (Proc.devRef .tc main_v1) = _
  after_results
  rfl

/-- The result after the reshape that follows the region: the output array read in the argument's shape. -/
theorem tail_eq (c : Dev nD) :
    Pipeline.afterTail₀ cfgs (dats m) 0 (V0 m) [hostOps1] c main_v3
      = shapeCast S16x4096x1024 (arrG (xarr m c) (tarr m c)) shapeCasts_S524288x128_S16x4096x1024 := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.tc.devRef main_v2)
      = arrG (xarr m c) (tarr m c) :=
    (Pipeline.withArrays_arr spec0 launch0.win.arr_inj c _ _ 2).trans (final m c)
  rw [e]
  rfl

/-- Reshaping to rows of 128 lanes, applying the element function, and reshaping back is the element function in the
    argument's own shape; and the table's rows of 128 lanes read at `(n / 128, n % 128)` are its flat entries `n`. -/
theorem result_eq (A0 : Vec Ideal S16x4096x1024 .f32) (A1 : Vec Ideal S4096 .f32) :
    shapeCast S16x4096x1024 (arrG (shapeCast S524288x128 A0 shapeCasts_S16x4096x1024_S524288x128)
      (shapeCast S32x128 A1 shapeCasts_S4096_S32x128)) shapeCasts_S524288x128_S16x4096x1024 = G A0 A1 := by
  funext i
  show lut (rowsTable (shapeCast S32x128 A1 shapeCasts_S4096_S32x128))
      (shapeCast S16x4096x1024 (shapeCast S524288x128 A0 shapeCasts_S16x4096x1024_S524288x128) shapeCasts_S524288x128_S16x4096x1024 i)
    = lut (fun n => A1 (ix1 n)) (A0 i)
  rw [shapeCast_shapeCast]
  congr 1
  funext n
  refine shapeCast_apply A1 shapeCasts_S4096_S32x128 _ (ix1 n) ?_
  rw [Shape.rowMajor_val_one, Shape.rowMajor_val_two]
  show n.val = n.val / 128 * 128 + n.val % 128
  omega

/-- THE KERNEL'S RUN, READ: every weakly fair execution ends with the result array at the element function of the two
    argument arrays, index by index, and the arguments unchanged. -/
theorem run : θ_run defs (onTc (τ := τ) (main (F := Ideal))) ⟨m, fun _ => 0, ρ⟩ fun r => ∀ c : Dev nD,
      r.2.mem ((c.tc : Thread nD τ).loc main_v3) = G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v3 (Pipeline.mem_restRefs_of main_v3 (by decide) (by decide))).trans
        ((tail_eq m c).trans (by rw [xarr_eq, tarr_eq]; exact result_eq _ _)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.Lut.Kernel

end
-- ==== Proof.lean ====
/-
  The lookup-table step `relu x - table[min (⌊|x| · 2^10⌋, 4095)]`: the kernel against its reference, over the
  extended reals.

  Both programs compute, element by element, the same function of the activation and the table (`LutSpec`: `lut`,
  and `G` for the whole array). The reference clamps the scaled, truncated absolute value to a slot and gathers the
  table at it (`RefIsLut`: `ref_eq`). The kernel reshapes the activations to rows of 128 lanes and the table to 32
  rows of 128 lanes, splits each slot into a row and a lane, scans the 32 rows keeping the lane's entry of the
  matching row, and reshapes the result back (`TripValue`, `KernelValue`: `run`). The two agree because a slot `c`
  in `[0, 4095]` is `128 (c / 128) + c mod 128` with `c / 128 < 32`: no law of the extended reals is used, every
  float operation meets the same operation on the other side, and the precondition is not needed. The frames are the
  kernel's run and the reference's run with the value forgotten; the idealization rewrote nothing.
-/
import proofs.«427323_j63711544869214_3_alg».proof.Defs
import proofs.«427323_j63711544869214_3_alg».proof.Proof.Gen.Kernel
import proofs.«427323_j63711544869214_3_alg».proof.Proof.Gen.Kernel.Skeleton
import proofs.«427323_j63711544869214_3_alg».proof.Proof.Gen.Kernel.Loops
import proofs.«427323_j63711544869214_3_alg».proof.Proof.Gen.Kernel.Launch
import proofs.«427323_j63711544869214_3_alg».proof.Proof.Gen.Kernel.Points
import proofs.«427323_j63711544869214_3_alg».proof.Proof.Gen.Kernel.Frame
import proofs.«427323_j63711544869214_3_alg».proof.Proof.Gen.KernelIdeal
import proofs.«427323_j63711544869214_3_alg».proof.Proof.Gen.KernelIdeal.Skeleton
import proofs.«427323_j63711544869214_3_alg».proof.Proof.Gen.KernelIdeal.Loops
import proofs.«427323_j63711544869214_3_alg».proof.Proof.Gen.KernelIdeal.Launch
import proofs.«427323_j63711544869214_3_alg».proof.Proof.Gen.KernelIdeal.Points
import proofs.«427323_j63711544869214_3_alg».proof.Proof.Gen.KernelIdeal.Frame
import proofs.«427323_j63711544869214_3_alg».proof.Proof.Gen.ReferenceIdeal
import proofs.«427323_j63711544869214_3_alg».proof.Proof.Gen.Pre_finite_inputs
import proofs.«427323_j63711544869214_3_alg».proof.Proof.Gen.ReferenceIdeal.Run
import proofs.«427323_j63711544869214_3_alg».proof.Proof.Gen.ReferenceIdeal.Read
import proofs.«427323_j63711544869214_3_alg».proof.Proof.RefIsLut
import proofs.«427323_j63711544869214_3_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel runs, faults nowhere and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference's run, its value forgotten. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the activations and the table, the kernel ends with the element function of its
    arguments at every index, and the reference with the same function of its own: equal arrays. -/
theorem algebraic : Cert.algebraic_KernelIdeal_ReferenceIdeal := by
  intro m ρ m' ρ' _ hagree
  refine ⟨fun c => Cert.Lut.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.Lut.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.Lut.Ref.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
